-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008x32 : Shape := ⟨2, ![11008, 32]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S8x4096 .f32) (main_arg1 : IVec S11008x4096 32) (main_arg2 : FVec F S11008x32 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S8x4096 : Shape := ⟨2, ![8, 4096]⟩
abbrev S11008x4096 : Shape := ⟨2, ![11008, 4096]⟩
abbrev S11008x32 : Shape := ⟨2, ![11008, 32]⟩
abbrev S8x11008 : Shape := ⟨2, ![8, 11008]⟩
abbrev S128x4096 : Shape := ⟨2, ![128, 4096]⟩
abbrev S128x32 : Shape := ⟨2, ![128, 32]⟩
abbrev S8x128 : Shape := ⟨2, ![8, 128]⟩
abbrev S128x32x128 : Shape := ⟨3, ![128, 32, 128]⟩
abbrev S128x32x1 : Shape := ⟨3, ![128, 32, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .f32⟩
  | .hbm, ⟨3, _⟩ => ⟨S8x11008, .f32⟩
  | .local _ .vmem, ⟨0, _⟩ => ⟨S8x4096, .f32⟩
  | .local _ .vmem, ⟨1, _⟩ => ⟨S128x4096, .i32⟩
  | .local _ .vmem, ⟨2, _⟩ => ⟨S128x4096, .i32⟩
  | .local _ .vmem, ⟨3, _⟩ => ⟨S128x32, .f32⟩
  | .local _ .vmem, ⟨4, _⟩ => ⟨S128x32, .f32⟩
  | .local _ .vmem, ⟨5, _⟩ => ⟨S8x128, .f32⟩
  | .local _ .vmem, ⟨6, _⟩ => ⟨S8x128, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  inb_S8x128_S8x128_0_0 : ∀ a, (![0, 0] : Fin 2 → Nat) a + S8x128.size a ≤ S8x128.size a
  h_S8x128 : 0 < S8x128.numel
  dot_S8x4096_S128x4096_S8x128_1_1_0_0_n_n_wf : DotDims.WF S8x4096 S128x4096 S8x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .i32 = 32 ∨ (Rect.block (s := S11008x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x11008.size a
  hwx0_3 : ∀ i : grid0.Coords, EltTy.bits .f32 = 32 ∨ (Rect.block (s := S8x11008) S8x128.size (cc0_transform_3 i) (hinb0_3 i)).WholeWords (EltTy.packing .f32)

variable [Facts₀]

def dot_S8x4096_S128x4096_S8x128_1_1_0_0_n_n : DotDims S8x4096 S128x4096 S8x128 where
  lhsContracting := [1]
  rhsContracting := [1]
  lhsNonContracting := [0]
  rhsNonContracting := [0]
  lhsBatch := []
  rhsBatch := []
  wf := dot_S8x4096_S128x4096_S8x128_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x4096 : Shape := ⟨2, ![11008, 4096]⟩
abbrev S11008x32 : Shape := ⟨2, ![11008, 32]⟩
abbrev S_ : Shape := ⟨0, ![]⟩
abbrev S11008x32x128 : Shape := ⟨3, ![11008, 32, 128]⟩
abbrev S11008x32x1 : Shape := ⟨3, ![11008, 32, 1]⟩
abbrev S4096x11008 : Shape := ⟨2, ![4096, 11008]⟩
abbrev S8x11008 : Shape := ⟨2, ![8, 11008]⟩

abbrev nBuf : Space → Nat
  | .hbm => 14
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .f32⟩
  | .hbm, ⟨3, _⟩ => ⟨S11008x4096, .f32⟩
  | .hbm, ⟨4, _⟩ => ⟨S_, .f32⟩
  | .hbm, ⟨5, _⟩ => ⟨S11008x4096, .f32⟩
  | .hbm, ⟨6, _⟩ => ⟨S11008x4096, .f32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x4096, .f32⟩
  | .hbm, ⟨12, _⟩ => ⟨S4096x11008, .f32⟩
  | .hbm, ⟨13, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S8x4096_S4096x11008_S8x11008_1_0_0_1_n_n_wf : DotDims.WF S8x4096 S4096x11008 S8x11008 [1] [0] [0] [1] [] []

variable [Facts₀]

def dot_S8x4096_S4096x11008_S8x11008_1_0_0_1_n_n : DotDims S8x4096 S4096x11008 S8x11008 where
  lhsContracting := [1]
  rhsContracting := [0]
  lhsNonContracting := [0]
  rhsNonContracting := [1]
  lhsBatch := []
  rhsBatch := []
  wf := dot_S8x4096_S4096x11008_S8x11008_1_0_0_1_n_n_wf

class Facts : Prop extends Facts₀ where

variable [Facts]
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.Dequant.lean ====
/-
  Group-wise dequantization of an integer weight table, and the product of activations with the dequantized weights.

  A weight table `q` holds one integer per (output feature `o`, input feature `k`). The 4096 input features are cut
  into 32 groups of 128 consecutive ones, and each (output feature, group) pair has a scale `s o g`. The dequantized
  weight is `(q o k - 8) * s o (k / 128)`, the integer read as a real number, and the result at (token `t`, output
  feature `o`) is the sum over the input features `k` of `x t k` times that weight. Both programs form this sum term
  by term, so nothing is asked of the terms beyond their being the same extended reals: no finiteness is used.

  Also here: the dequantized weights of a block of 128 output features in the layout a blocked program builds them
  in, read at an entry. The block is cut [128, 4096] -> [128, 32, 128], multiplied by the scales broadcast along the
  new last axis, and joined back; the row-major position `r * 4096 + k` is `(r * 32 + k / 128) * 128 + k % 128`.
-/
import Idealize.ShloMosaic.PureOps.Ideal
import Idealize.ShloMosaic.Lib.ValueIdx
import Idealize.ShloMosaic.Lib.Pipeline.Value

noncomputable section

open scoped BigOperators

namespace Cert.Dequant

open Idealize.ShloMosaic Idealize.ShloMosaic.ValueIdx

/-- The group of 128 consecutive input features that holds feature `k`. -/
def grp (k : Fin 4096) : Fin 32 := ⟨k.val / 128, by have := k.isLt; omega⟩

/-- The dequantized weight of output feature `o` at input feature `k`, over a table of `N` output features: the
    stored integer less 8, times the scale of the feature's group. -/
def weight {N : Nat} (q : IVec ⟨2, ![N, 4096]⟩ 32) (s : FVec Ideal ⟨2, ![N, 32]⟩ .f32) (o : Fin N) (k : Fin 4096) : EReal :=
  (FloatOps.sitofp (F := Ideal) .f32 (q (ix2 o k)) - Ideal.ofBits .f32 0x41000000#32) * s (ix2 o (grp k))

/-- The result: at (token, output feature) the sum over the input features of activation times dequantized weight. -/
def out (x : FVec Ideal ⟨2, ![8, 4096]⟩ .f32) (q : IVec ⟨2, ![11008, 4096]⟩ 32) (s : FVec Ideal ⟨2, ![11008, 32]⟩ .f32) :
    FVec Ideal ⟨2, ![8, 11008]⟩ .f32 :=
  fun i => ∑ k : Fin 4096, x (ix2 (i 0) k) * weight q s (i 1) k

/-- A block of 128 rows cut into groups, scaled group by group and joined back, read at row `r` and column `k`:
    the entry there times the scale of the column's group. -/
theorem scaled_apply (v : FVec Ideal ⟨2, ![128, 4096]⟩ .f32) (w : FVec Ideal ⟨2, ![128, 32]⟩ .f32)
    (h1 : (⟨2, ![128, 4096]⟩ : Shape).ShapeCasts ⟨3, ![128, 32, 128]⟩)
    (h2 : (⟨2, ![128, 32]⟩ : Shape).ShapeCasts ⟨3, ![128, 32, 1]⟩)
    (h3 : (⟨3, ![128, 32, 1]⟩ : Shape).Broadcasts ⟨3, ![128, 32, 128]⟩)
    (h4 : (⟨3, ![128, 32, 128]⟩ : Shape).ShapeCasts ⟨2, ![128, 4096]⟩) (r : Fin 128) (k : Fin 4096) :
    shapeCast ⟨2, ![128, 4096]⟩ (mulf (shapeCast ⟨3, ![128, 32, 128]⟩ v h1)
        (broadcastTo ⟨3, ![128, 32, 128]⟩ (shapeCast ⟨3, ![128, 32, 1]⟩ w h2) h3)) h4 (ix2 r k)
      = v (ix2 r k) * w (ix2 r (grp k)) := by
  have hk := k.isLt
  have hr := r.isLt
  refine (shapeCast_apply _ h4 (ix2 r k) (ix3 r (grp k) ⟨k.val % 128, Nat.mod_lt _ (by decide)⟩) ?_).trans ?_
  · rw [Shape.rowMajor_val_three, Shape.rowMajor_val_two]
    show (r.val * 32 + k.val / 128) * 128 + k.val % 128 = r.val * 4096 + k.val
    omega
  rw [mulf_apply]
  congr 1
  · refine shapeCast_apply v h1 _ (ix2 r k) ?_
    rw [Shape.rowMajor_val_two, Shape.rowMajor_val_three]
    show r.val * 4096 + k.val = (r.val * 32 + k.val / 128) * 128 + k.val % 128
    omega
  · refine (broadcastTo_apply _ h3 _ (ix3 r (grp k) ⟨0, Nat.one_pos⟩) ?_).trans ?_
    · intro a
      match a with
      | ⟨0, _⟩ => show r.val = if (128 : Nat) = 1 then 0 else r.val; rw [if_neg (by decide)]
      | ⟨1, _⟩ => show k.val / 128 = if (32 : Nat) = 1 then 0 else k.val / 128; rw [if_neg (by decide)]
      | ⟨2, _⟩ => show 0 = if (1 : Nat) = 1 then 0 else k.val % 128; rw [if_pos rfl]
    · refine shapeCast_apply w h2 _ (ix2 r (grp k)) ?_
      rw [Shape.rowMajor_val_two, Shape.rowMajor_val_three]
      show r.val * 32 + k.val / 128 = (r.val * 32 + k.val / 128) * 1 + 0
      omega

end Cert.Dequant

end
-- ==== Proof.KernelBlock.lean ====
/-
  What the kernel's body computes for one block of 128 output features, read at an entry.

  The body turns the block's stored integers into reals, subtracts 8, cuts the 4096 input features into 32 groups of
  128, multiplies each group by its scale and joins the groups back: entry (r, k) of that matrix is the dequantized
  weight of the block's row `r` at input feature `k`. It then multiplies the activations by the transpose of that
  matrix, contracting over the input features, into a zero accumulator. A change of float format is the identity on
  extended reals, so at entry (t, r) the body holds the sum over `k` of `x t k` times the dequantized weight of row
  `r` at `k`.
-/
import proofs.«126195_j82540681494871_1_alg».proof.Proof.Gen.KernelIdeal.Skeleton
import proofs.«126195_j82540681494871_1_alg».proof.Proof.LibDotNT
import proofs.«126195_j82540681494871_1_alg».proof.Proof.Dequant

noncomputable section

open scoped BigOperators

namespace Cert.KernelIdeal.Block

open Cert.KernelIdeal Cert.KernelIdeal.Gen Idealize.ShloMosaic Idealize.ShloMosaic.ValueIdx

/-- The body's one stored value at (token `t`, row `r` of the block): the activations of token `t` against the
    dequantized weights of row `r`, summed over the input features. -/
theorem pay_apply (q : Vec Ideal S128x4096 .i32) (s : Vec Ideal S128x32 .f32) (x : Vec Ideal S8x4096 .f32)
    (t : Fin 8) (r : Fin 128) :
    k0_pay1 (F := Ideal) q s x (ix2 t r) = ∑ k : Fin 4096, x (ix2 t k) * Cert.Dequant.weight q s r k := by
  unfold k0_pay1
  refine (Cert.LibDotNT.matmul_zero_apply dot_S8x4096_S128x4096_S8x128_1_1_0_0_n_n rfl rfl rfl rfl rfl rfl none _ _ t r).trans ?_
  refine Finset.sum_congr rfl fun k _ => ?_
  show x (ix2 t k) * _ = _
  congr 1
  exact (Cert.Dequant.scaled_apply _ _ _ _ _ _ r k).trans rfl

end Cert.KernelIdeal.Block

end
-- ==== Proof.KernelArray.lean ====
/-
  The kernel's result array after the run is the product of the activations with the dequantized weights.

  Grid point `t` (of 86) handles the output features `128 t ... 128 t + 127`: it reads the whole activations, rows
  `128 t ...` of the integer table and of the scales, and writes columns `128 t ...` of the result. So the block it
  writes at (token `a`, row `r`) is the whole-array function at (a, 128 t + r), and every column `o` of the result lies
  in the block of point `o / 128`: the 86 blocks cover the array, which therefore ends holding that function.
-/
import proofs.«126195_j82540681494871_1_alg».proof.Proof.Gen.KernelIdeal.Value
import proofs.«126195_j82540681494871_1_alg».proof.Proof.KernelBlock

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three argument arrays as the region finds them, and each one's block at a grid point. -/
abbrev xarr (c : Dev nD) : Vec Ideal S8x4096 .f32 := V m c main_arg0
abbrev qarr (c : Dev nD) : Vec Ideal S11008x4096 .i32 := V m c main_arg1
abbrev sarr (c : Dev nD) : Vec Ideal S11008x32 .f32 := V m c main_arg2
abbrev xblk (c : Dev nD) (t : Fin cfg0.N) : Vec Ideal S8x4096 .f32 := iblk m c 0 t
abbrev qblk (c : Dev nD) (t : Fin cfg0.N) : Vec Ideal S128x4096 .i32 := iblk m c 1 t
abbrev sblk (c : Dev nD) (t : Fin cfg0.N) : Vec Ideal S128x32 .f32 := iblk m c 2 t

/-- The printed index maps over the grid: the activations' block never moves; the table's and the scales' blocks move
    down one block of rows per point, the result's one block of columns per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The activations' block at any point is the whole array. -/
theorem xblk_apply (c : Dev nD) (t : Fin cfg0.N) (a : Fin 8) (k : Fin 4096) :
    xblk m c t (ix2 a k) = xarr m c (ix2 a k) := by
  obtain ⟨e00, e01, -⟩ := idx_facts t
  unfold xblk xarr iblk
  rw [View.read_apply]
  show V m c main_arg0 _ = V m c main_arg0 _
  congr 1
  funext d
  apply Fin.ext
  match d with
  | ⟨0, _⟩ => show win0_0.index t (0 : Fin 2) * 8 + 1 * a.val = a.val; rw [e00]; omega
  | ⟨1, _⟩ => show win0_0.index t (1 : Fin 2) * 4096 + 1 * k.val = k.val; rw [e01]; omega

/-- The table's block at point `t` is rows `128 t ...` of the table. -/
theorem qblk_apply (c : Dev nD) (t : Fin cfg0.N) (r : Fin 128) (k : Fin 4096) (o : Fin 11008) (ho : o.val = 128 * t.val + r.val) :
    qblk m c t (ix2 r k) = qarr m c (ix2 o k) := by
  obtain ⟨-, -, e10, e11, -⟩ := idx_facts t
  unfold qblk qarr iblk
  rw [View.read_apply]
  show V m c main_arg1 _ = V m c main_arg1 _
  congr 1
  funext d
  apply Fin.ext
  match d with
  | ⟨0, _⟩ => show win0_1.index t (0 : Fin 2) * 128 + 1 * r.val = o.val; rw [e10, ho]; omega
  | ⟨1, _⟩ => show win0_1.index t (1 : Fin 2) * 4096 + 1 * k.val = k.val; rw [e11]; omega

/-- The scales' block at point `t` is rows `128 t ...` of the scales. -/
theorem sblk_apply (c : Dev nD) (t : Fin cfg0.N) (r : Fin 128) (g : Fin 32) (o : Fin 11008) (ho : o.val = 128 * t.val + r.val) :
    sblk m c t (ix2 r g) = sarr m c (ix2 o g) := by
  obtain ⟨-, -, -, -, e20, e21, -⟩ := idx_facts t
  unfold sblk sarr iblk
  rw [View.read_apply]
  show V m c main_arg2 _ = V m c main_arg2 _
  congr 1
  funext d
  apply Fin.ext
  match d with
  | ⟨0, _⟩ => show win0_2.index t (0 : Fin 2) * 128 + 1 * r.val = o.val; rw [e20, ho]; omega
  | ⟨1, _⟩ => show win0_2.index t (1 : Fin 2) * 32 + 1 * g.val = g.val; rw [e21]; omega

/-- What the body stores at point `t`, at an entry of its block, is the whole-array function at the entry's place in
    the result: same token, column `128 t` plus the block's row. -/
theorem pay_blk (c : Dev nD) (t : Fin cfg0.N) (j : S8x128.Idx) (i : S8x11008.Idx)
    (h0 : (i 0).val = (j 0).val) (h1 : (i 1).val = 128 * t.val + (j 1).val) :
    k0_pay1 (F := Ideal) (qblk m c t) (sblk m c t) (xblk m c t) j = Cert.Dequant.out (xarr m c) (qarr m c) (sarr m c) i := by
  obtain ⟨a, r, rfl⟩ : ∃ (a : Fin 8) (r : Fin 128), j = ix2 a r := ⟨j 0, j 1, eq_ix2 j⟩
  rw [Cert.KernelIdeal.Block.pay_apply]
  unfold Cert.Dequant.out
  refine Finset.sum_congr rfl fun k _ => ?_
  have ea : i 0 = a := Fin.ext h0
  rw [xblk_apply m c t a k, ea]
  congr 1
  unfold Cert.Dequant.weight
  rw [qblk_apply m c t r k (i 1) h1, sblk_apply m c t r (Cert.Dequant.grp k) (i 1) h1]

/-- WHAT POINT `t` WRITES BACK is block `t` of the whole-array function. -/
theorem flushed_eq (c : Dev nD) (t : Fin cfg0.N) :
    (dats m 0 c).flushed 3 t = ((cfg0.win 3).blk t).view.read (Elt Ideal) (Cert.Dequant.out (xarr m c) (qarr m c) (sarr m c)) := by
  rw [Cert.KernelIdeal.Value.flushed3]
  unfold out0_3
  rw [View.canon_unit_zero origin]
  simp only [View.ld_unit_zero (S := S128x4096) origin, View.ld_unit_zero (S := S128x32) origin, View.ld_unit_zero (S := S8x4096) origin]
  obtain ⟨-, -, -, -, -, -, e30, e31⟩ := idx_facts t
  funext j
  show k0_pay1 (F := Ideal) (qblk m c t) (sblk m c t) (xblk m c t) j = Cert.Dequant.out (xarr m c) (qarr m c) (sarr m c) (((cfg0.win 3).blk t).view.emb j)
  refine pay_blk m c t j _ ?_ ?_
  · show win0_3.index t (0 : Fin 2) * 8 + 1 * (j 0).val = (j 0).val
    rw [e30]; omega
  · show win0_3.index t (1 : Fin 2) * 128 + 1 * (j 1).val = 128 * t.val + (j 1).val
    rw [e31]; omega

/-- An index of the result is in point `t`'s block iff each coordinate is in the block's range on its axis. -/
theorem mem_blk (t : Fin cfg0.N) (i : S8x11008.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0).slice (win0_3.rect t)).set ↔ _
  rw [View.set_slice_whole, Rect.mem_set_unit]
  exact Iff.rfl

/-- Every index of the result is in the block of the point that handles its column's group of 128. -/
theorem cover (i : S8x11008.Idx) : ∃ t : Fin cfg0.N, (cfg0.win 3).flush t = true ∧ i ∈ ((cfg0.win 3).blk t).view.set := by
  have h0 : (i 0).val < 8 := (i 0).isLt
  have h1 : (i 1).val < 11008 := (i 1).isLt
  have hN : cfg0.N = 86 := N_0
  obtain ⟨t, ht⟩ : ∃ t : Fin cfg0.N, t.val = (i 1).val / 128 := ⟨⟨(i 1).val / 128, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    rw [e30]; omega
  | ⟨1, _⟩ =>
    show win0_3.index t (1 : Fin 2) * 128 ≤ (i 1).val ∧ (i 1).val < win0_3.index t (1 : Fin 2) * 128 + 128
    rw [e31, ht]; omega

/-- THE ARRAY after the run: the product of the activations with the dequantized weights, of the arguments as
    launched. -/
theorem final (c : Dev nD) : (dats m 0 c).arrAt 3 cfg0.N
    = Cert.Dequant.out (m ((c : Thread nD τ).loc main_arg0)) (m ((c : Thread nD τ).loc main_arg1)) (m ((c : Thread nD τ).loc main_arg2)) :=
  (dats m 0 c).arrAt_eq_of_cover 3 (Cert.Dequant.out (xarr m c) (qarr m c) (sarr m c)) (fun t _ => flushed_eq m c t) cover

/-- The run, read: the result array at that function of the arguments, the arguments unchanged. -/
theorem run : θ_run defs (onTc (τ := τ) (main (F := Ideal))) ⟨m, fun _ => 0, ρ⟩ fun r => ∀ c : Dev nD,
      r.2.mem ((c : Thread nD τ).loc main_v0)
        = Cert.Dequant.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.Reference.lean ====
/-
  The reference program's result, read at an entry, is the product of the activations with the dequantized weights.

  The reference dequantizes the whole table at once: integers to reals, less 8, cut [11008, 4096] -> [11008, 32, 128],
  times the scales broadcast along the last axis, joined back, transposed, and contracted with the activations over
  the input features. Reading each step at an index, entry (t, o) is the sum over `k` of `x t k` times the table's
  entry at (o, k) less 8 times the scale at (o, k / 128): row-major position `o * 4096 + k` sits at
  (o, k / 128, k % 128) of the grouped array, and a scale is the same along a group.
-/
import proofs.«126195_j82540681494871_1_alg».proof.Proof.Gen.ReferenceIdeal.Read
import proofs.«126195_j82540681494871_1_alg».proof.Proof.Dequant

noncomputable section

open scoped BigOperators

namespace Cert.ReferenceIdeal.Entry

open Cert.ReferenceIdeal Cert.ReferenceIdeal.Gen Cert.ReferenceIdeal.Read Idealize.ShloMosaic Idealize.ShloMosaic.ValueIdx

/-- The activation the contraction reads at step `k` for entry `i`: token `i 0`, input feature `k`. -/
theorem lidx_eq (i : S8x11008.Idx) (k : Fin 4096) : lidx_main_v9 i k = ix2 (i 0) k :=
  funext fun a => Fin.ext (by match a with | ⟨0, _⟩ => rfl | ⟨1, _⟩ => rfl)

/-- Through the transpose, the join and the cut, the contraction's step `k` for entry `i` reads the integer table at
    output feature `i 1`, input feature `k`. -/
theorem qidx_eq (i : S8x11008.Idx) (k : Fin 4096) :
    idx_main_v3 (idx_main_v7 (idx_main_v8 (ridx_main_v9 i k))) = ix2 (i 1) k := by
  have h1 : (i 1).val < 11008 := (i 1).isLt
  have hk : k.val < 4096 := k.isLt
  funext a
  apply Fin.ext
  match a with
  | ⟨0, _⟩ =>
    show (((((i 1).val * 4096 + k.val) / 4096) * 32 + ((i 1).val * 4096 + k.val) / 128 % 32) * 128 + ((i 1).val * 4096 + k.val) % 128) / 4096 = (i 1).val
    omega
  | ⟨1, _⟩ =>
    show (((((i 1).val * 4096 + k.val) / 4096) * 32 + ((i 1).val * 4096 + k.val) / 128 % 32) * 128 + ((i 1).val * 4096 + k.val) % 128) % 4096 = k.val
    omega

/-- and the scales at output feature `i 1`, the group of input feature `k`. -/
theorem sidx_eq (i : S8x11008.Idx) (k : Fin 4096) :
    idx_main_v4 (idx_main_v5 (idx_main_v7 (idx_main_v8 (ridx_main_v9 i k)))) = ix2 (i 1) (Cert.Dequant.grp k) := by
  have h1 : (i 1).val < 11008 := (i 1).isLt
  have hk : k.val < 4096 := k.isLt
  funext a
  apply Fin.ext
  match a with
  | ⟨0, _⟩ =>
    show ((i 1).val * 4096 + k.val) / 4096 = (i 1).val
    omega
  | ⟨1, _⟩ =>
    show ((i 1).val * 4096 + k.val) / 128 % 32 = k.val / 128
    omega

/-- The reference's result is the product of the activations with the dequantized weights. -/
theorem result_eq (x : (⟨S8x4096, .f32⟩ : BufTy).Contents (Elt Ideal)) (q : (⟨S11008x4096, .i32⟩ : BufTy).Contents (Elt Ideal))
    (s : (⟨S11008x32, .f32⟩ : BufTy).Contents (Elt Ideal)) :
    val_main_v9 (F := Ideal) x q s = Cert.Dequant.out x q s := by
  funext i
  rw [val_main_v9_apply]
  unfold Cert.Dequant.out
  refine Finset.sum_congr rfl fun k _ => ?_
  rw [val_main_v8_apply, val_main_v7_apply, val_main_v6_apply, val_main_v3_apply, val_main_v5_apply, val_main_v4_apply,
    val_main_v2_apply, val_main_v0_apply, val_main_v1_apply, val_main_cst_apply, lidx_eq, qidx_eq, sidx_eq]
  rfl

end Cert.ReferenceIdeal.Entry

end
-- ==== Proof.lean ====
/-
  A matrix product of activations with group-wise dequantized 4-bit weights, blocked over the output features, against
  the same product written with whole arrays.

  Both programs compute, at (token `t`, output feature `o`), the sum over the 4096 input features `k` of
  `x t k * ((q o k - 8) * s o (k / 128))`: `q` the stored integers read as reals, `s` one scale per output feature and
  group of 128 consecutive input features. The kernel does it for 128 output features at a time, contracting the
  activations with the transpose of the dequantized block into a zero accumulator; the reference dequantizes the whole
  table, transposes it and contracts. Over the extended reals a change of float format is the identity, the constant 8
  is the same word on both sides, and the two sums have the same terms in the same order, so the results are equal
  entry by entry with no condition on the inputs beyond what the statement gives: the precondition is never opened.

  The modules: `Dequant` states the result as one function of the three argument arrays (`Dequant.out`) and reads
  a grouped, scaled block at an entry; `LibDotNT` reads a product with a transposed right operand at an entry;
  `KernelBlock` reads what the kernel's body stores for one block; `KernelArray` places the 86 blocks in the result
  array; `Reference` reads the reference's result at an entry. Here: the three runs terminate with the arguments
  unchanged, the idealization rewrote nothing, and both results are `Dequant.out` of arguments that agree.
-/
import proofs.«126195_j82540681494871_1_alg».proof.Defs
import proofs.«126195_j82540681494871_1_alg».proof.Proof.Gen.Kernel
import proofs.«126195_j82540681494871_1_alg».proof.Proof.Gen.Kernel.Skeleton
import proofs.«126195_j82540681494871_1_alg».proof.Proof.Gen.Kernel.Launch
import proofs.«126195_j82540681494871_1_alg».proof.Proof.Gen.Kernel.Points
import proofs.«126195_j82540681494871_1_alg».proof.Proof.Gen.Kernel.Frame
import proofs.«126195_j82540681494871_1_alg».proof.Proof.Gen.KernelIdeal
import proofs.«126195_j82540681494871_1_alg».proof.Proof.Gen.KernelIdeal.Skeleton
import proofs.«126195_j82540681494871_1_alg».proof.Proof.Gen.KernelIdeal.Launch
import proofs.«126195_j82540681494871_1_alg».proof.Proof.Gen.KernelIdeal.Points
import proofs.«126195_j82540681494871_1_alg».proof.Proof.Gen.KernelIdeal.Frame
import proofs.«126195_j82540681494871_1_alg».proof.Proof.Gen.ReferenceIdeal
import proofs.«126195_j82540681494871_1_alg».proof.Proof.Gen.Pre_finite_inputs
import proofs.«126195_j82540681494871_1_alg».proof.Proof.Gen.KernelIdeal.Value
import proofs.«126195_j82540681494871_1_alg».proof.Proof.Gen.ReferenceIdeal.Run
import proofs.«126195_j82540681494871_1_alg».proof.Proof.Gen.ReferenceIdeal.Read
import proofs.«126195_j82540681494871_1_alg».proof.Proof.KernelArray
import proofs.«126195_j82540681494871_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the product of the
    activations with the dequantized weights. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Entry.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
